-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x208 : Shape := ⟨3, ![64, 2048, 208]⟩
abbrev S208x208 : Shape := ⟨2, ![208, 208]⟩
abbrev S208 : Shape := ⟨1, ![208]⟩
abbrev S_ : Shape := ⟨0, ![]⟩

class Facts : Prop where
  bcast_S_S64x2048x208 : S_.BroadcastsInDim S64x2048x208 (![] : Fin 0 → Fin S64x2048x208.rank)
  reducesTo_S64x2048x208_S_d0_1_2 : S64x2048x208.ReducesTo [0, 1, 2] S_
  h_S_ : 0 < S_.numel
  bcast_S_S208x208 : S_.BroadcastsInDim S208x208 (![] : Fin 0 → Fin S208x208.rank)
  reducesTo_S208x208_S_d0_1 : S208x208.ReducesTo [0, 1] S_
  bcast_S_S208 : S_.BroadcastsInDim S208 (![] : Fin 0 → Fin S208.rank)
  reducesTo_S208_S_d0 : S208.ReducesTo [0] S_

variable [Facts]

def fn_part1 {F : FTy → Type} [FloatOps F] (main_v13 : IVec S_ 1) (main_v16 : IVec S208x208 1) : IVec S_ 1 :=
  let main_c_5 : IVec S_ 1 := constantI S_ 1 1#1
  let main_v17 : IVec S_ 1 := (fun x v => Host.reduce IntOp.andi x v reducesTo_S208x208_S_d0_1 h_S_) main_v16 main_c_5
  let main_v18 : IVec S_ 1 := andi main_v13 main_v17
  main_v18

def fn {F : FTy → Type} [FloatOps F] (main_arg0 : FVec F S64x2048x208 .f32) (main_arg1 : FVec F S208x208 .f32) (main_arg2 : FVec F S208 .f32) (main_arg3 : FVec F S208x208 .f32) : IVec S_ 1 :=
  let main_v0 : FVec F S64x2048x208 .f32 := Host.absf main_arg0
  let main_cst : FVec F S_ .f32 := constant S_ .f32 0x7F800000#32
  let main_v1 : FVec F S64x2048x208 .f32 := broadcastInDim S64x2048x208 ![] bcast_S_S64x2048x208 main_cst
  let main_v2 : IVec S64x2048x208 1 := cmpf .olt main_v0 main_v1
  let main_c : IVec S_ 1 := constantI S_ 1 1#1
  let main_v3 : IVec S_ 1 := (fun x v => Host.reduce IntOp.andi x v reducesTo_S64x2048x208_S_d0_1_2 h_S_) main_v2 main_c
  let main_v4 : FVec F S208x208 .f32 := Host.absf main_arg1
  let main_cst_0 : FVec F S_ .f32 := constant S_ .f32 0x7F800000#32
  let main_v5 : FVec F S208x208 .f32 := broadcastInDim S208x208 ![] bcast_S_S208x208 main_cst_0
  let main_v6 : IVec S208x208 1 := cmpf .olt main_v4 main_v5
  let main_c_1 : IVec S_ 1 := constantI S_ 1 1#1
  let main_v7 : IVec S_ 1 := (fun x v => Host.reduce IntOp.andi x v reducesTo_S208x208_S_d0_1 h_S_) main_v6 main_c_1
  let main_v8 : IVec S_ 1 := andi main_v3 main_v7
  let main_v9 : FVec F S208 .f32 := Host.absf main_arg2
  let main_cst_2 : FVec F S_ .f32 := constant S_ .f32 0x7F800000#32
  let main_v10 : FVec F S208 .f32 := broadcastInDim S208 ![] bcast_S_S208 main_cst_2
  let main_v11 : IVec S208 1 := cmpf .olt main_v9 main_v10
  let main_c_3 : IVec S_ 1 := constantI S_ 1 1#1
  let main_v12 : IVec S_ 1 := (fun x v => Host.reduce IntOp.andi x v reducesTo_S208_S_d0 h_S_) main_v11 main_c_3
  let main_v13 : IVec S_ 1 := andi main_v8 main_v12
  let main_v14 : FVec F S208x208 .f32 := Host.absf main_arg3
  let main_cst_4 : FVec F S_ .f32 := constant S_ .f32 0x7F800000#32
  let main_v15 : FVec F S208x208 .f32 := broadcastInDim S208x208 ![] bcast_S_S208x208 main_cst_4
  let main_v16 : IVec S208x208 1 := cmpf .olt main_v14 main_v15
  fn_part1 (F := F) main_v13 main_v16
-- ==== Kernel.lean ====
abbrev S64x2048x208 : Shape := ⟨3, ![64, 2048, 208]⟩
abbrev S208x208 : Shape := ⟨2, ![208, 208]⟩
abbrev S208 : Shape := ⟨1, ![208]⟩
abbrev S131072x208 : Shape := ⟨2, ![131072, 208]⟩
abbrev S1x208 : Shape := ⟨2, ![1, 208]⟩
abbrev S4096x208 : Shape := ⟨2, ![4096, 208]⟩

abbrev nBuf : Space → Nat
  | .hbm => 9
  | .vmem => 6
  | .smem => 0
  | _ => 0

abbrev bufTy : (tb : Table) → Fin (tcTables nBuf tb) → BufTy
  | .hbm, ⟨0, _⟩ => ⟨S64x2048x208, .f32⟩
  | .hbm, ⟨1, _⟩ => ⟨S208x208, .f32⟩
  | .hbm, ⟨2, _⟩ => ⟨S208, .f32⟩
  | .hbm, ⟨3, _⟩ => ⟨S208x208, .f32⟩
  | .hbm, ⟨4, _⟩ => ⟨S131072x208, .f32⟩
  | .hbm, ⟨5, _⟩ => ⟨S208x208, .f32⟩
  | .hbm, ⟨6, _⟩ => ⟨S1x208, .f32⟩
  | .hbm, ⟨7, _⟩ => ⟨S131072x208, .f32⟩
  | .hbm, ⟨8, _⟩ => ⟨S64x2048x208, .f32⟩
  | .local _ .vmem, ⟨0, _⟩ => ⟨S4096x208, .f32⟩
  | .local _ .vmem, ⟨1, _⟩ => ⟨S4096x208, .f32⟩
  | .local _ .vmem, ⟨2, _⟩ => ⟨S208x208, .f32⟩
  | .local _ .vmem, ⟨3, _⟩ => ⟨S1x208, .f32⟩
  | .local _ .vmem, ⟨4, _⟩ => ⟨S4096x208, .f32⟩
  | .local _ .vmem, ⟨5, _⟩ => ⟨S4096x208, .f32⟩
  | _, _ => ⟨S64x2048x208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x208 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S208x208 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x208 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x208 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x2048x208_S131072x208 : S64x2048x208.ShapeCasts S131072x208
  shapeCasts_S208_S1x208 : S208.ShapeCasts S1x208
  inb_S4096x208_S4096x208_0_0 : ∀ a, (![0, 0] : Fin 2 → Nat) a + S4096x208.size a ≤ S4096x208.size a
  h_S4096x208 : 0 < S4096x208.numel
  shapeCasts_S4096x208_S4096x208 : S4096x208.ShapeCasts S4096x208
  bitsLt_bf16_f32 : FTy.bits .bf16 < FTy.bits .f32
  inb_S208x208_S208x208_0_0 : ∀ a, (![0, 0] : Fin 2 → Nat) a + S208x208.size a ≤ S208x208.size a
  h_S208x208 : 0 < S208x208.numel
  shapeCasts_S208x208_S208x208 : S208x208.ShapeCasts S208x208
  inb_S1x208_S1x208_0_0 : ∀ a, (![0, 0] : Fin 2 → Nat) a + S1x208.size a ≤ S1x208.size a
  h_S1x208 : 0 < S1x208.numel
  shapeCasts_S1x208_S1x208 : S1x208.ShapeCasts S1x208
  broadcasts_S1x208_S4096x208 : S1x208.Broadcasts S4096x208
  shapeCasts_S131072x208_S64x2048x208 : S131072x208.ShapeCasts S64x2048x208
  dot_S4096x208_S208x208_S4096x208_1_0_0_1_n_n_wf : DotDims.WF S4096x208 S208x208 S4096x208 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x208.size a ≤ S131072x208.size a
  hwx0_0 : ∀ i : grid0.Coords, EltTy.bits .f32 = 32 ∨ (Rect.block (s := S131072x208) S4096x208.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S208x208.size a ≤ S208x208.size a
  hwx0_1 : ∀ i : grid0.Coords, EltTy.bits .f32 = 32 ∨ (Rect.block (s := S208x208) S208x208.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x208.size a ≤ S1x208.size a
  hwx0_2 : ∀ i : grid0.Coords, EltTy.bits .f32 = 32 ∨ (Rect.block (s := S1x208) S1x208.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x208.size a ≤ S131072x208.size a
  hwx0_3 : ∀ i : grid0.Coords, EltTy.bits .f32 = 32 ∨ (Rect.block (s := S131072x208) S4096x208.size (cc0_transform_3 i) (hinb0_3 i)).WholeWords (EltTy.packing .f32)

variable [Facts₀]

def dot_S4096x208_S208x208_S4096x208_1_0_0_1_n_n : DotDims S4096x208 S208x208 S4096x208 where
  lhsContracting := [1]
  rhsContracting := [0]
  lhsNonContracting := [0]
  rhsNonContracting := [1]
  lhsBatch := []
  rhsBatch := []
  wf := dot_S4096x208_S208x208_S4096x208_1_0_0_1_n_n_wf

abbrev win0_0 : Pipeline.Window sig grid0 :=
  Pipeline.Window.ofSpec (Memref.whole main_v0) S4096x208.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S208x208.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x208.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x208.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x208 : Shape := ⟨3, ![64, 2048, 208]⟩
abbrev S208x208 : Shape := ⟨2, ![208, 208]⟩
abbrev S208 : Shape := ⟨1, ![208]⟩
abbrev S1x1x208 : Shape := ⟨3, ![1, 1, 208]⟩

abbrev nBuf : Space → Nat
  | .hbm => 9
  | .vmem => 0
  | .smem => 0
  | _ => 0

abbrev bufTy : (tb : Table) → Fin (tcTables nBuf tb) → BufTy
  | .hbm, ⟨0, _⟩ => ⟨S64x2048x208, .f32⟩
  | .hbm, ⟨1, _⟩ => ⟨S208x208, .f32⟩
  | .hbm, ⟨2, _⟩ => ⟨S208, .f32⟩
  | .hbm, ⟨3, _⟩ => ⟨S208x208, .f32⟩
  | .hbm, ⟨4, _⟩ => ⟨S208x208, .f32⟩
  | .hbm, ⟨5, _⟩ => ⟨S64x2048x208, .f32⟩
  | .hbm, ⟨6, _⟩ => ⟨S1x1x208, .f32⟩
  | .hbm, ⟨7, _⟩ => ⟨S64x2048x208, .f32⟩
  | .hbm, ⟨8, _⟩ => ⟨S64x2048x208, .f32⟩
  | _, _ => ⟨S64x2048x208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S208_S1x1x208_2 : S208.BroadcastsInDim S1x1x208 (![2] : Fin 1 → Fin S1x1x208.rank)
  bcast_S1x1x208_S64x2048x208_0_1_2 : S1x1x208.BroadcastsInDim S64x2048x208 (![0, 1, 2] : Fin 3 → Fin S64x2048x208.rank)
  dot_S64x2048x208_S208x208_S64x2048x208_2_0_01_1_n_n_wf : DotDims.WF S64x2048x208 S208x208 S64x2048x208 [2] [0] [0, 1] [1] [] []

variable [Facts₀]

def dot_S64x2048x208_S208x208_S64x2048x208_2_0_01_1_n_n : DotDims S64x2048x208 S208x208 S64x2048x208 where
  lhsContracting := [2]
  rhsContracting := [0]
  lhsNonContracting := [0, 1]
  rhsNonContracting := [1]
  lhsBatch := []
  rhsBatch := []
  wf := dot_S64x2048x208_S208x208_S64x2048x208_2_0_01_1_n_n_wf

class Facts : Prop extends Facts₀ where

variable [Facts]
-- ==== Proof.KernelBlock.lean ====
/-
  One grid point of the kernel, as mathematics: the body multiplies its 4096 × 208 block of rows by the whole
  208 × 208 masked weight into a zero accumulator and adds the bias row to every row. Read at `(p, j)` that is
  `(∑ n, rows[p, n] · weight[n, j]) + bias[0, j]`: the change of float format before the product is the identity on
  extended reals, and the product into zero is the plain sum over the contracted node axis.
-/
import proofs.«178131_j52587579572679_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen

/-! ## The operand indices of the block product -/

theorem lhs_mm_0 (i : S4096x208.Idx) (q : dot_S4096x208_S208x208_S4096x208_1_0_0_1_n_n.contr.Idx) :
    (dot_S4096x208_S208x208_S4096x208_1_0_0_1_n_n.lhsIdx i q 0).val = (i 0).val := by
  unfold DotDims.lhsIdx
  rw [dif_neg (show ¬(0 : Fin S4096x208.rank) ∈ dot_S4096x208_S208x208_S4096x208_1_0_0_1_n_n.lhsBatch by decide), dif_pos (show (0 : Fin S4096x208.rank) ∈ dot_S4096x208_S208x208_S4096x208_1_0_0_1_n_n.lhsNonContracting by decide)]
  rfl
theorem lhs_mm_1 (i : S4096x208.Idx) (q : dot_S4096x208_S208x208_S4096x208_1_0_0_1_n_n.contr.Idx) :
    (dot_S4096x208_S208x208_S4096x208_1_0_0_1_n_n.lhsIdx i q 1).val = (q ⟨0, by decide⟩).val :=
  dot_S4096x208_S208x208_S4096x208_1_0_0_1_n_n.lhsIdx_val_of_single rfl i q
theorem rhs_mm_0 (i : S4096x208.Idx) (q : dot_S4096x208_S208x208_S4096x208_1_0_0_1_n_n.contr.Idx) :
    (dot_S4096x208_S208x208_S4096x208_1_0_0_1_n_n.rhsIdx i q 0).val = (q ⟨0, by decide⟩).val :=
  dot_S4096x208_S208x208_S4096x208_1_0_0_1_n_n.rhsIdx_val_of_single rfl i q
theorem rhs_mm_1 (i : S4096x208.Idx) (q : dot_S4096x208_S208x208_S4096x208_1_0_0_1_n_n.contr.Idx) :
    (dot_S4096x208_S208x208_S4096x208_1_0_0_1_n_n.rhsIdx i q 1).val = (i 1).val := by
  unfold DotDims.rhsIdx
  rw [dif_neg (show ¬(1 : Fin S208x208.rank) ∈ dot_S4096x208_S208x208_S4096x208_1_0_0_1_n_n.rhsBatch by decide), dif_pos (show (1 : Fin S208x208.rank) ∈ dot_S4096x208_S208x208_S4096x208_1_0_0_1_n_n.rhsNonContracting by decide)]
  rfl

/-- The block product into the zero accumulator, at `(p, j)`: the sum over the node axis of row `p` against column `j`. -/
theorem matmul_at (l : FVec Ideal S4096x208 .bf16) (r : FVec Ideal S208x208 .bf16) (p : Fin 4096) (j : Fin 208) :
    matmul dot_S4096x208_S208x208_S4096x208_1_0_0_1_n_n none l r (constant (F := Ideal) S4096x208 .f32 0x00000000#32) (ix2 p j)
      = ∑ n : Fin 208, l (ix2 p n) * r (ix2 n j) := by
  simp only [matmul]
  rw [Ideal.matmul_constant_zero_apply, ← Equiv.sum_comp (contrEquiv1 dot_S4096x208_S208x208_S4096x208_1_0_0_1_n_n 208 rfl rfl).symm]
  refine Finset.sum_congr rfl fun n _ => ?_
  have hn := contrEquiv1_symm_val dot_S4096x208_S208x208_S4096x208_1_0_0_1_n_n 208 rfl rfl n
  have el : dot_S4096x208_S208x208_S4096x208_1_0_0_1_n_n.lhsIdx (ix2 p j) ((contrEquiv1 dot_S4096x208_S208x208_S4096x208_1_0_0_1_n_n 208 rfl rfl).symm n) = ix2 p n := funext fun a => Fin.ext (by
    match a with
    | ⟨0, _⟩ => exact lhs_mm_0 _ _
    | ⟨1, _⟩ => exact (lhs_mm_1 _ _).trans hn)
  have er : dot_S4096x208_S208x208_S4096x208_1_0_0_1_n_n.rhsIdx (ix2 p j) ((contrEquiv1 dot_S4096x208_S208x208_S4096x208_1_0_0_1_n_n 208 rfl rfl).symm n) = ix2 n j := funext fun a => Fin.ext (by
    match a with
    | ⟨0, _⟩ => exact (rhs_mm_0 _ _).trans hn
    | ⟨1, _⟩ => exact rhs_mm_1 _ _)
  rw [el, er]

/-- The bias row broadcast over the block's rows, at `(p, j)`: the row's entry `j`. -/
theorem bias_at (v : FVec Ideal S1x208 .f32) (p : Fin 4096) (j : Fin 208) :
    broadcastTo S4096x208 v broadcasts_S1x208_S4096x208 (ix2 p j) = v (ix2 (0 : Fin 1) j) := by
  refine broadcastTo_apply v broadcasts_S1x208_S4096x208 (ix2 p j) (ix2 (0 : Fin 1) j) fun a => ?_
  match a with
  | ⟨0, _⟩ => rfl
  | ⟨1, _⟩ => rfl

/-- What the body stores, at `(p, j)` of the block. -/
theorem pay_at (x0 : Vec Ideal S4096x208 .f32) (x1 : Vec Ideal S208x208 .f32) (x2 : Vec Ideal S1x208 .f32) (p : Fin 4096) (j : Fin 208) :
    k0_pay1 (F := Ideal) x0 x1 x2 (ix2 p j) = (∑ n : Fin 208, x0 (ix2 p n) * x1 (ix2 n j)) + x2 (ix2 (0 : Fin 1) j) := by
  unfold k0_pay1
  rw [addf_apply, shapeCast_self, shapeCast_self, shapeCast_self, matmul_at, bias_at]
  rfl

end Cert.KernelIdeal.Block

end
-- ==== Proof.KernelArray.lean ====
/-
  The kernel's output array after the run. The grid's 32 points tile the 131072 rows into blocks of 4096; point `t`
  reads rows `4096·t … 4096·t + 4095` of the flattened `x`, the whole masked weight and the whole bias row, and writes
  back the same rows of the output. So every row of the output array ends at the row of `x` mixed through the masked
  weight, plus the bias row: one function of the three arrays the region finds, whatever the point that wrote the row.
-/
import proofs.«178131_j52587579572679_1_alg».proof.Proof.Gen.KernelIdeal.Frame
import proofs.«178131_j52587579572679_1_alg».proof.Proof.KernelBlock

set_option maxRecDepth 16384

noncomputable section

namespace Cert.KernelIdeal.ArrValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- Rows times weight plus the bias row, on the flattened arrays: `(∑ n, A[r, n] · B[n, j]) + b[0, j]` at `(r, j)`. -/
def H (A : S131072x208.Idx → EReal) (B : S208x208.Idx → EReal) (b : S1x208.Idx → EReal) : S131072x208.Idx → EReal :=
  fun i => (∑ n : Fin 208, A (ix2 (i 0) n) * B (ix2 n (i 1))) + b (ix2 (0 : Fin 1) (i 1))

/-- One point's stored block at `(p, j)` is `H` at `(r, j)`, when the block of rows holds row `r` of `A` at `p` and the
    other two blocks are the whole arrays. -/
theorem block_eq (x0 : Vec Ideal S4096x208 .f32) (x1 : Vec Ideal S208x208 .f32) (x2 : Vec Ideal S1x208 .f32)
    (A : S131072x208.Idx → EReal) (B : S208x208.Idx → EReal) (b : S1x208.Idx → EReal)
    (p : Fin 4096) (j : Fin 208) (r : Fin 131072)
    (h0 : ∀ n : Fin 208, x0 (ix2 p n) = A (ix2 r n))
    (h1 : ∀ n : Fin 208, x1 (ix2 n j) = B (ix2 n j))
    (h2 : x2 (ix2 (0 : Fin 1) j) = b (ix2 (0 : Fin 1) j)) :
    k0_pay1 (F := Ideal) x0 x1 x2 (ix2 p j) = H A B b (ix2 r j) := by
  rw [Block.pay_at, h2]
  show _ = (∑ n : Fin 208, A (ix2 r n) * B (ix2 n j)) + b (ix2 (0 : Fin 1) j)
  exact congrArg (· + b (ix2 (0 : Fin 1) j)) (Finset.sum_congr rfl fun n _ => by rw [h0, h1])

theorem hz : (![0, 0] : Fin 2 → Nat) = fun _ => 0 := funext fun a => by fin_cases a <;> rfl

/-- The windows' index maps over the grid: the rows' and the output's blocks move with the point, the weight's and the
    bias's stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `H` of the three arrays as the region finds them. -/
theorem flushed_eq (c : Dev nD) (t : Fin cfg0.N) :
    (dats m 0 c).flushed 3 t = ((cfg0.win 3).blk t).view.read (Elt Ideal) (H (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S4096x208) hz, View.ld_unit_zero (S := S208x208) hz, View.ld_unit_zero (S := S1x208) hz]
  obtain ⟨e00, e01, e10, e11, e20, e21, e30, e31⟩ := idx_facts t
  have ht : t.val < 32 := lt_of_lt_of_eq t.isLt N_0
  funext y
  obtain ⟨p, j, rfl⟩ : ∃ (p : Fin 4096) (j : Fin 208), y = ix2 p j := ⟨y 0, y 1, eq_ix2 y⟩
  have hr : t.val * 4096 + p.val < 131072 := by have := p.isLt; omega
  -- the output's block places `(p, j)` at row `4096·t + p`, column `j`
  have hemb : ((cfg0.win 3).blk t).view.emb (ix2 p j) = ix2 (⟨t.val * 4096 + p.val, hr⟩ : Fin 131072) j := by
    funext a; apply Fin.ext
    match a with
    | ⟨0, _⟩ => show win0_3.index t (0 : Fin 2) * 4096 + 1 * p.val = t.val * 4096 + p.val; omega
    | ⟨1, _⟩ => show win0_3.index t (1 : Fin 2) * 208 + 1 * j.val = j.val; omega
  show k0_pay1 (F := Ideal) (iblk m c 0 t) (iblk m c 1 t) (iblk m c 2 t) (ix2 p j)
    = H (V m c main_v0) (V m c main_v1) (V m c main_v2) (((cfg0.win 3).blk t).view.emb (ix2 p j))
  rw [hemb]
  refine block_eq (iblk m c 0 t) (iblk m c 1 t) (iblk m c 2 t) (V m c main_v0) (V m c main_v1) (V m c main_v2) p j
    ⟨t.val * 4096 + p.val, hr⟩ (fun n => ?_) (fun n => ?_) ?_
  · -- the block of rows at `(p, n)` is row `4096·t + p` of the flattened `x`
    show V m c main_v0 (((cfg0.win 0).blk t).view.emb (ix2 p n)) = V m c main_v0 (ix2 (⟨t.val * 4096 + p.val, hr⟩ : Fin 131072) n)
    refine congrArg (V m c main_v0) (funext fun a => Fin.ext ?_)
    match a with
    | ⟨0, _⟩ => show win0_0.index t (0 : Fin 2) * 4096 + 1 * p.val = t.val * 4096 + p.val; omega
    | ⟨1, _⟩ => show win0_0.index t (1 : Fin 2) * 208 + 1 * n.val = n.val; omega
  · -- the weight's block is the whole masked weight
    show V m c main_v1 (((cfg0.win 1).blk t).view.emb (ix2 n j)) = V m c main_v1 (ix2 n j)
    refine congrArg (V m c main_v1) (funext fun a => Fin.ext ?_)
    match a with
    | ⟨0, _⟩ => show win0_1.index t (0 : Fin 2) * 208 + 1 * n.val = n.val; omega
    | ⟨1, _⟩ => show win0_1.index t (1 : Fin 2) * 208 + 1 * j.val = j.val; omega
  · -- the bias's block is the whole bias row
    show V m c main_v2 (((cfg0.win 2).blk t).view.emb (ix2 (0 : Fin 1) j)) = V m c main_v2 (ix2 (0 : Fin 1) j)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 208 + 1 * j.val = j.val; omega

/-- An index of the output array is in point `t`'s block iff each coordinate is in the block's range on its axis. -/
theorem mem_blk (t : Fin cfg0.N) (i : S131072x208.Idx) :
    i ∈ ((cfg0.win 3).blk t).view.set ↔ ∀ a : Fin 2, win0_3.index t a * S4096x208.size a ≤ (i a).val ∧ (i a).val < win0_3.index t a * S4096x208.size a + S4096x208.size a := by
  show i ∈ ((View.whole main_v3).slice (win0_3.rect t)).set ↔ _
  rw [View.set_slice_whole, Rect.mem_set_unit]
  exact Iff.rfl

/-- Every row of the output is in the block of the point `row / 4096`. -/
theorem cover (i : S131072x208.Idx) :
    ∃ t : Fin cfg0.N, (cfg0.win 3).flush t = true ∧ i ∈ ((cfg0.win 3).blk t).view.set := by
  have hi0 : (i 0).val < 131072 := (i 0).isLt
  have hi1 : (i 1).val < 208 := (i 1).isLt
  have hN : (i 0).val / 4096 < cfg0.N := lt_of_lt_of_eq (by omega : (i 0).val / 4096 < 32) N_0.symm
  refine ⟨⟨(i 0).val / 4096, hN⟩, flush0_3 _, ?_⟩
  obtain ⟨-, -, -, -, -, -, e30, e31⟩ := idx_facts ⟨(i 0).val / 4096, hN⟩
  have e30' : win0_3.index ⟨(i 0).val / 4096, hN⟩ (0 : Fin 2) = (i 0).val / 4096 := e30
  rw [mem_blk]
  intro a
  match a with
  | ⟨0, _⟩ =>
    show win0_3.index ⟨(i 0).val / 4096, hN⟩ (0 : Fin 2) * 4096 ≤ (i 0).val ∧ (i 0).val < win0_3.index ⟨(i 0).val / 4096, hN⟩ (0 : Fin 2) * 4096 + 4096
    omega
  | ⟨1, _⟩ =>
    show win0_3.index ⟨(i 0).val / 4096, hN⟩ (1 : Fin 2) * 208 ≤ (i 1).val ∧ (i 1).val < win0_3.index ⟨(i 0).val / 4096, hN⟩ (1 : Fin 2) * 208 + 208
    omega

/-- The output array after the run: `H` of the three arrays the region finds. -/
theorem final (c : Dev nD) :
    (dats m 0 c).arrAt 3 cfg0.N = H (V m c main_v0) (V m c main_v1) (V m c main_v2) :=
  (dats m 0 c).arrAt_eq_of_cover 3 (H (V m c main_v0) (V m c main_v1) (V m c main_v2)) (fun t _ => flushed_eq m c t) cover

end Cert.KernelIdeal.ArrValue

end
-- ==== Proof.Spec.lean ====
/-
  The function both programs compute, index by index over the extended reals: every (batch, time) row of `x`,
  a vector over the 208 nodes, is mixed through the weight matrix masked entrywise by the support, and the bias
  is added per output node:
    out[b, t, j] = (∑ n, x[b, t, n] · (S[n, j] · W[n, j])) + bias[j].
  The arguments are taken in the programs' order: x, W, bias, S.
-/
import Idealize.ShloMosaic.PureOps.Ideal
import Idealize.ShloMosaic.Lib.ValueIdx

noncomputable section

namespace Cert.MaskedLinear

open Idealize.ShloMosaic Idealize.ShloMosaic.ValueIdx

/-- The masked node-mixing map with bias: `(∑ n, x[b,t,n] · (S[n,j] · W[n,j])) + bias[j]` at `(b, t, j)`. -/
def G (x : (⟨3, ![64, 2048, 208]⟩ : Shape).Idx → EReal) (W : (⟨2, ![208, 208]⟩ : Shape).Idx → EReal)
    (bias : (⟨1, ![208]⟩ : Shape).Idx → EReal) (S : (⟨2, ![208, 208]⟩ : Shape).Idx → EReal) :
    (⟨3, ![64, 2048, 208]⟩ : Shape).Idx → EReal :=
  fun i => (∑ n : Fin 208, x (ix3 (i 0) (i 1) n) * (S (ix2 n (i 2)) * W (ix2 n (i 2)))) + bias (ix1 (i 2))

end Cert.MaskedLinear

end
-- ==== Proof.Flatten.lean ====
/-
  Flattening and unflattening. The kernel runs on `x` with batch and time merged into one axis of 131072 rows
  (row `2048·b + t`), on the bias as a 1 × 208 row, and its output is split back into batch and time. Read through
  those three relayouts, rows times masked weight plus the bias row is the masked node-mixing map at `(b, t, j)`.
-/
import proofs.«178131_j52587579572679_1_alg».proof.Proof.KernelArray
import proofs.«178131_j52587579572679_1_alg».proof.Proof.Spec

noncomputable section

namespace Cert.KernelIdeal.ArrValue

open Idealize.ShloMosaic Idealize.ShloMosaic.ValueIdx Cert.KernelIdeal

/-- The flattened `x` at row `2048·b + t`, column `n`, is `x[b, t, n]`. -/
theorem flat_x (x : S64x2048x208.Idx → EReal) (h : S64x2048x208.ShapeCasts S131072x208) (b : Fin 64) (t : Fin 2048) (n : Fin 208)
    (hr : b.val * 2048 + t.val < 131072) :
    shapeCast S131072x208 x h (ix2 (⟨b.val * 2048 + t.val, hr⟩ : Fin 131072) n) = x (ix3 b t n) :=
  shapeCast_apply x h _ _ (by
    rw [Shape.rowMajor_val_two, Shape.rowMajor_val_three]
    show (b.val * 2048 + t.val) * 208 + n.val = (b.val * 2048 + t.val) * 208 + n.val
    rfl)

/-- The bias as a row, at `(0, j)`, is `bias[j]`. -/
theorem row_bias (v : S208.Idx → EReal) (h : S208.ShapeCasts S1x208) (j : Fin 208) :
    shapeCast S1x208 v h (ix2 (0 : Fin 1) j) = v (ix1 j) :=
  shapeCast_apply v h _ _ (by
    rw [Shape.rowMajor_val_two, Shape.rowMajor_val_one]
    show j.val = 0 * 208 + j.val
    omega)

/-- Rows times masked weight plus bias row, computed on the flattened arrays and split back into batch and time, is the
    masked node-mixing map of `x`, `W`, the bias and `S`. -/
theorem unflatten_H (x : S64x2048x208.Idx → EReal) (W : S208x208.Idx → EReal) (v : S208.Idx → EReal) (S : S208x208.Idx → EReal)
    (h1 : S64x2048x208.ShapeCasts S131072x208) (h2 : S208.ShapeCasts S1x208) (h3 : S131072x208.ShapeCasts S64x2048x208) :
    shapeCast S64x2048x208 (H (shapeCast S131072x208 x h1) (mulf (F := Ideal) (φ := .f32) S W) (shapeCast S1x208 v h2)) h3
      = Cert.MaskedLinear.G x W v S := by
  funext i
  obtain ⟨b, t, j, rfl⟩ : ∃ (b : Fin 64) (t : Fin 2048) (j : Fin 208), i = ix3 b t j := ⟨i 0, i 1, i 2, eq_ix3 i⟩
  have hr : b.val * 2048 + t.val < 131072 := by have := b.isLt; have := t.isLt; omega
  rw [shapeCast_apply _ h3 (ix3 b t j) (ix2 (⟨b.val * 2048 + t.val, hr⟩ : Fin 131072) j) (by
    rw [Shape.rowMajor_val_two, Shape.rowMajor_val_three]
    show (b.val * 2048 + t.val) * 208 + j.val = (b.val * 2048 + t.val) * 208 + j.val
    rfl)]
  show (∑ n : Fin 208, shapeCast S131072x208 x h1 (ix2 (⟨b.val * 2048 + t.val, hr⟩ : Fin 131072) n) * mulf (F := Ideal) (φ := .f32) S W (ix2 n j))
      + shapeCast S1x208 v h2 (ix2 (0 : Fin 1) j)
    = (∑ n : Fin 208, x (ix3 b t n) * (S (ix2 n j) * W (ix2 n j))) + v (ix1 j)
  rw [row_bias]
  exact congrArg (· + v (ix1 j)) (Finset.sum_congr rfl fun n _ => by rw [flat_x x h1 b t n hr]; rfl)

end Cert.KernelIdeal.ArrValue

end
-- ==== Proof.KernelRun.lean ====
/-
  The kernel program's run, read as a value. Before the region the host flattens `x`, masks the weight (`S · W`,
  entry by entry) and makes the bias a row; the region leaves rows times masked weight plus the bias row in its output
  array; after the region the host splits the rows back into batch and time. Composed, the program's result is the
  masked node-mixing map of its four arguments, which it leaves unchanged.
-/
import proofs.«178131_j52587579572679_1_alg».proof.Proof.Flatten
import Idealize.ShloMosaic.Lib.StableHlo.Run

noncomputable section

namespace Cert.KernelIdeal.ArrValue

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀

variable (m : (ℓ : Loc nD τ sig) → Buf (Elt Ideal) ℓ) (ρ : Dev nD → PrngReg)

/-- The region finds `x` flattened to 131072 rows. -/
theorem V_v0 (c : Dev nD) : (V m c main_v0 : S131072x208.Idx → EReal)
    = shapeCast S131072x208 (m ((c : Thread nD τ).loc main_arg0)) Facts₀.shapeCasts_S64x2048x208_S131072x208 := by
  show StableHlo.after hostOps0 (fun b => m (c, b)) (Proc.devRef .tc main_v0) = _
  after_results
  rfl

/-- The region finds the weight masked entry by entry by the support. -/
theorem V_v1 (c : Dev nD) : (V m c main_v1 : S208x208.Idx → EReal)
    = mulf (F := Ideal) (φ := .f32) (m ((c : Thread nD τ).loc main_arg3)) (m ((c : Thread nD τ).loc main_arg1)) := by
  show StableHlo.after hostOps0 (fun b => m (c, b)) (Proc.devRef .tc main_v1) = _
  after_results

/-- The region finds the bias as a 1 × 208 row. -/
theorem V_v2 (c : Dev nD) : (V m c main_v2 : S1x208.Idx → EReal)
    = shapeCast S1x208 (m ((c : Thread nD τ).loc main_arg2)) Facts₀.shapeCasts_S208_S1x208 := by
  show StableHlo.after hostOps0 (fun b => m (c, b)) (Proc.devRef .tc main_v2) = _
  after_results
  rfl

/-- After the region the host splits the output array's rows back into batch and time. -/
theorem tail_v4 (c : Dev nD) :
    Pipeline.afterTail₀ cfgs (dats m) 0 (V0 m) [hostOps1] c main_v4
      = shapeCast S64x2048x208 ((dats m 0 c).arrAt 3 cfg0.N) Facts₀.shapeCasts_S131072x208_S64x2048x208 := by
  unfold Pipeline.afterTail₀
  show StableHlo.after hostOps1 _ (Proc.devRef .tc main_v4) = _
  after_results
  have e : Pipeline.withArrays spec0 c (V0 m c) (fun w => (dats m 0 c).arrAt w cfg0.N) (Proc.devRef .tc (Pipeline.arrRef spec0 3))
      = (dats m 0 c).arrAt 3 cfg0.N :=
    Pipeline.withArrays_arr spec0 launch0.win.arr_inj c (V0 m c) (fun w => (dats m 0 c).arrAt w cfg0.N) 3
  funext i
  show shapeCast S64x2048x208 (Pipeline.withArrays spec0 c (V0 m c) (fun w => (dats m 0 c).arrAt w cfg0.N)
    (Proc.devRef .tc (Pipeline.arrRef spec0 3))) Facts₀.shapeCasts_S131072x208_S64x2048x208 i = _
  rw [e]

/-- The program's result: the masked node-mixing map of the four arguments. -/
theorem result_eq (c : Dev nD) :
    Pipeline.afterTail₀ cfgs (dats m) 0 (V0 m) [hostOps1] c main_v4
      = Cert.MaskedLinear.G (m ((c : Thread nD τ).loc main_arg0)) (m ((c : Thread nD τ).loc main_arg1))
          (m ((c : Thread nD τ).loc main_arg2)) (m ((c : Thread nD τ).loc main_arg3)) := by
  rw [tail_v4, final, V_v0, V_v1, V_v2]
  exact unflatten_H _ _ _ _ _ _ _

/-- Every weakly fair execution of the kernel program terminates with its result at the masked node-mixing map of the
    arguments, and the arguments unchanged. -/
theorem run : θ_run defs (onTc (τ := τ) (main (F := Ideal))) ⟨m, fun _ => 0, ρ⟩ fun r => ∀ c : Dev nD,
      r.2.mem ((c.tc : Thread nD τ).loc main_v4)
        = Cert.MaskedLinear.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrValue

end
-- ==== Proof.RefValue.lean ====
/-
  The reference's result, read one operation at a time: the contraction of `x`'s node axis against the first
  axis of the masked weight `S · W`, plus the bias broadcast along batch and time, is the masked node-mixing map.
-/
import proofs.«178131_j52587579572679_1_alg».proof.Proof.Gen.ReferenceIdeal.Run
import proofs.«178131_j52587579572679_1_alg».proof.Proof.Gen.ReferenceIdeal.Read
import proofs.«178131_j52587579572679_1_alg».proof.Proof.Spec

noncomputable section

namespace Cert.ReferenceIdeal.RefValue

open Idealize.ShloMosaic Idealize.ShloMosaic.ValueIdx Cert.ReferenceIdeal Cert.ReferenceIdeal.Read

/-- The left operand of the contraction is read at `(b, t, n)`. -/
theorem lidx_eq (i : S64x2048x208.Idx) (n : Fin 208) : lidx_main_v1 i n = ix3 (i 0) (i 1) n :=
  funext fun a => Fin.ext (by match a with | ⟨0, _⟩ => rfl | ⟨1, _⟩ => rfl | ⟨2, _⟩ => rfl)

/-- The right operand, the masked weight, is read at `(n, j)`. -/
theorem ridx_eq (i : S64x2048x208.Idx) (n : Fin 208) : ridx_main_v1 i n = ix2 n (i 2) :=
  funext fun a => Fin.ext (by match a with | ⟨0, _⟩ => rfl | ⟨1, _⟩ => rfl)

/-- The bias, broadcast twice, is read at `j`. -/
theorem bidx_eq (i : S64x2048x208.Idx) : idx_main_v2 (idx_main_v3 i) = ix1 (i 2) :=
  funext fun a => Fin.ext (by match a with | ⟨0, _⟩ => rfl)

/-- The reference's last stage is the masked node-mixing map of the four arguments. -/
theorem ref_eq (x0 : (⟨S64x2048x208, .f32⟩ : BufTy).Contents (Elt Ideal)) (x1 : (⟨S208x208, .f32⟩ : BufTy).Contents (Elt Ideal))
    (x2 : (⟨S208, .f32⟩ : BufTy).Contents (Elt Ideal)) (x3 : (⟨S208x208, .f32⟩ : BufTy).Contents (Elt Ideal)) :
    val_main_v4 (F := Ideal) x0 x1 x2 x3 = Cert.MaskedLinear.G x0 x1 x2 x3 := by
  funext i
  rw [val_main_v4_apply, val_main_v1_apply, val_main_v3_apply, val_main_v2_apply]
  simp only [val_main_v0_apply, lidx_eq, ridx_eq, bidx_eq, Ideal.addf_def, Ideal.mulf_def]
  rfl

end Cert.ReferenceIdeal.RefValue

end
-- ==== Proof.lean ====
/-
  A locally connected graph convolution: every (batch, time) row of `x`, a vector over 208 nodes, is mixed through the
  208 × 208 weight masked entry by entry by the k-hop support, and a per-node bias is added,
    out[b, t, j] = (∑ n, x[b, t, n] · (S[n, j] · W[n, j])) + bias[j].
  The kernel computes it on `x` flattened to 131072 rows, 4096 rows per grid point, as a block product against the
  whole masked weight plus the bias row, and splits the rows back into batch and time; the reference contracts the node
  axis of `x` against the masked weight directly and adds the broadcast bias. Over the extended reals the change of float
  format before the kernel's product is the identity and both products are the plain sum over the node axis, so the two
  results are the same sum term by term: no law beyond reading both sides at an index is needed, and finiteness of the
  inputs is never used. The idealization rewrote nothing, so its ledger is empty.
-/
import proofs.«178131_j52587579572679_1_alg».proof.Defs
import proofs.«178131_j52587579572679_1_alg».proof.Proof.Gen.Kernel
import proofs.«178131_j52587579572679_1_alg».proof.Proof.Gen.Kernel.Skeleton
import proofs.«178131_j52587579572679_1_alg».proof.Proof.Gen.Kernel.Launch
import proofs.«178131_j52587579572679_1_alg».proof.Proof.Gen.Kernel.Points
import proofs.«178131_j52587579572679_1_alg».proof.Proof.Gen.Kernel.Frame
import proofs.«178131_j52587579572679_1_alg».proof.Proof.Gen.KernelIdeal
import proofs.«178131_j52587579572679_1_alg».proof.Proof.Gen.KernelIdeal.Skeleton
import proofs.«178131_j52587579572679_1_alg».proof.Proof.Gen.KernelIdeal.Launch
import proofs.«178131_j52587579572679_1_alg».proof.Proof.Gen.KernelIdeal.Points
import proofs.«178131_j52587579572679_1_alg».proof.Proof.Gen.KernelIdeal.Frame
import proofs.«178131_j52587579572679_1_alg».proof.Proof.Gen.ReferenceIdeal
import proofs.«178131_j52587579572679_1_alg».proof.Proof.Gen.ReferenceIdeal.Run
import proofs.«178131_j52587579572679_1_alg».proof.Proof.Gen.ReferenceIdeal.Read
import proofs.«178131_j52587579572679_1_alg».proof.Proof.Gen.Pre_finite_inputs
import proofs.«178131_j52587579572679_1_alg».proof.Proof.KernelRun
import proofs.«178131_j52587579572679_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the masked node-mixing map of those arguments. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
